-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S400000x32 : Shape := ⟨2, ![400000, 32]⟩
abbrev S100000x32 : Shape := ⟨2, ![100000, 32]⟩
abbrev S64x32 : Shape := ⟨2, ![64, 32]⟩
abbrev S64 : Shape := ⟨1, ![64]⟩
abbrev S_ : Shape := ⟨0, ![]⟩

class Facts : Prop where
  bcast_S_S400000x32 : S_.BroadcastsInDim S400000x32 (![] : Fin 0 → Fin S400000x32.rank)
  reducesTo_S400000x32_S_d0_1 : S400000x32.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_v33 : IVec S_ 1) : IVec S_ 1 :=
  let main_cst_12 : FVec F S_ .f32 := constant S_ .f32 0x3727C5AC#32
  let main_v34 : FVec F S64 .f32 := broadcastInDim S64 ![] bcast_S_S64 main_cst_12
  let main_v35 : FVec F S64 .f32 := addf main_arg8 main_v34
  let main_cst_13 : FVec F S_ .f32 := constant S_ .f32 0x00000000#32
  let main_v36 : FVec F S64 .f32 := broadcastInDim S64 ![] bcast_S_S64 main_cst_13
  let main_v37 : IVec S64 1 := cmpf .ogt main_v35 main_v36
  let main_c_14 : IVec S_ 1 := constantI S_ 1 1#1
  let main_v38 : IVec S_ 1 := (fun x v => Host.reduce IntOp.andi x v reducesTo_S64_S_d0 h_S_) main_v37 main_c_14
  let main_v39 : IVec S_ 1 := andi main_v33 main_v38
  main_v39

def fn_part1 {F : FTy → Type} [FloatOps F] (main_arg6 : FVec F S64 .f32) (main_arg7 : FVec F S64 .f32) (main_arg8 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_v33

def fn {F : FTy → Type} [FloatOps F] (main_arg0 : FVec F S400000x32 .f32) (main_arg1 : IVec S100000x32 32) (main_arg2 : IVec S100000x32 32) (main_arg3 : FVec F S64x32 .f32) (main_arg4 : FVec F S64 .f32) (main_arg5 : FVec F S64 .f32) (main_arg6 : FVec F S64 .f32) (main_arg7 : FVec F S64 .f32) (main_arg8 : FVec F S64 .f32) : IVec S_ 1 :=
  let main_v0 : FVec F S400000x32 .f32 := Host.absf main_arg0
  let main_cst : FVec F S_ .f32 := constant S_ .f32 0x7F800000#32
  let main_v1 : FVec F S400000x32 .f32 := broadcastInDim S400000x32 ![] bcast_S_S400000x32 main_cst
  let main_v2 : IVec S400000x32 1 := cmpf .olt main_v0 main_v1
  let main_c : IVec S_ 1 := constantI S_ 1 1#1
  let main_v3 : IVec S_ 1 := (fun x v => Host.reduce IntOp.andi x v reducesTo_S400000x32_S_d0_1 h_S_) main_v2 main_c
  let main_v4 : FVec F S64x32 .f32 := Host.absf main_arg3
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_v13 main_v16
-- ==== Kernel.lean ====
abbrev S400000x32 : Shape := ⟨2, ![400000, 32]⟩
abbrev S100000x32 : Shape := ⟨2, ![100000, 32]⟩
abbrev S64x32 : Shape := ⟨2, ![64, 32]⟩
abbrev S64 : Shape := ⟨1, ![64]⟩
abbrev S_ : Shape := ⟨0, ![]⟩
abbrev S100000x32x1 : Shape := ⟨3, ![100000, 32, 1]⟩
abbrev S100000x32x32 : Shape := ⟨3, ![100000, 32, 32]⟩
abbrev S1x64 : Shape := ⟨2, ![1, 64]⟩
abbrev S32x64 : Shape := ⟨2, ![32, 64]⟩
abbrev S100000x64 : Shape := ⟨2, ![100000, 64]⟩
abbrev S5000x32x32 : Shape := ⟨3, ![5000, 32, 32]⟩
abbrev S5000x64 : Shape := ⟨2, ![5000, 64]⟩
abbrev S160000x32 : Shape := ⟨2, ![160000, 32]⟩
abbrev S160000x64 : Shape := ⟨2, ![160000, 64]⟩
abbrev S5000x32x64 : Shape := ⟨3, ![5000, 32, 64]⟩
abbrev S1x1x64 : Shape := ⟨3, ![1, 1, 64]⟩

abbrev nBuf : Space → Nat
  | .hbm => 44
  | .vmem => 7
  | .smem => 0
  | _ => 0

abbrev bufTy : (tb : Table) → Fin (tcTables nBuf tb) → BufTy
  | .hbm, ⟨0, _⟩ => ⟨S400000x32, .f32⟩
  | .hbm, ⟨1, _⟩ => ⟨S100000x32, .i32⟩
  | .hbm, ⟨2, _⟩ => ⟨S100000x32, .i32⟩
  | .hbm, ⟨3, _⟩ => ⟨S64x32, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S_, .i32⟩
  | .hbm, ⟨10, _⟩ => ⟨S100000x32, .i32⟩
  | .hbm, ⟨11, _⟩ => ⟨S100000x32, .i32⟩
  | .hbm, ⟨12, _⟩ => ⟨S400000x32, .bf16⟩
  | .hbm, ⟨13, _⟩ => ⟨S_, .i32⟩
  | .hbm, ⟨14, _⟩ => ⟨S100000x32, .i32⟩
  | .hbm, ⟨15, _⟩ => ⟨S100000x32, .i1⟩
  | .hbm, ⟨16, _⟩ => ⟨S_, .i32⟩
  | .hbm, ⟨17, _⟩ => ⟨S100000x32, .i32⟩
  | .hbm, ⟨18, _⟩ => ⟨S100000x32, .i32⟩
  | .hbm, ⟨19, _⟩ => ⟨S100000x32, .i32⟩
  | .hbm, ⟨20, _⟩ => ⟨S100000x32x1, .i32⟩
  | .hbm, ⟨21, _⟩ => ⟨S100000x32x32, .bf16⟩
  | .hbm, ⟨22, _⟩ => ⟨S_, .i32⟩
  | .hbm, ⟨23, _⟩ => ⟨S100000x32, .i32⟩
  | .hbm, ⟨24, _⟩ => ⟨S100000x32, .i1⟩
  | .hbm, ⟨25, _⟩ => ⟨S100000x32x1, .i1⟩
  | .hbm, ⟨26, _⟩ => ⟨S_, .bf16⟩
  | .hbm, ⟨27, _⟩ => ⟨S100000x32x32, .i1⟩
  | .hbm, ⟨28, _⟩ => ⟨S100000x32x32, .bf16⟩
  | .hbm, ⟨29, _⟩ => ⟨S100000x32x32, .bf16⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S64, .f32⟩
  | .hbm, ⟨34, _⟩ => ⟨S64, .f32⟩
  | .hbm, ⟨35, _⟩ => ⟨S64, .f32⟩
  | .hbm, ⟨36, _⟩ => ⟨S64, .f32⟩
  | .hbm, ⟨37, _⟩ => ⟨S64, .f32⟩
  | .hbm, ⟨38, _⟩ => ⟨S64, .f32⟩
  | .hbm, ⟨39, _⟩ => ⟨S1x64, .f32⟩
  | .hbm, ⟨40, _⟩ => ⟨S1x64, .f32⟩
  | .hbm, ⟨41, _⟩ => ⟨S32x64, .f32⟩
  | .hbm, ⟨42, _⟩ => ⟨S32x64, .bf16⟩
  | .hbm, ⟨43, _⟩ => ⟨S100000x64, .f32⟩
  | .local _ .vmem, ⟨0, _⟩ => ⟨S5000x32x32, .bf16⟩
  | .local _ .vmem, ⟨1, _⟩ => ⟨S5000x32x32, .bf16⟩
  | .local _ .vmem, ⟨2, _⟩ => ⟨S32x64, .bf16⟩
  | .local _ .vmem, ⟨3, _⟩ => ⟨S1x64, .f32⟩
  | .local _ .vmem, ⟨4, _⟩ => ⟨S1x64, .f32⟩
  | .local _ .vmem, ⟨5, _⟩ => ⟨S5000x64, .f32⟩
  | .local _ .vmem, ⟨6, _⟩ => ⟨S5000x64, .f32⟩
  | _, _ => ⟨S400000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_c_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_call0_v0 : Ref sig .tc := ⟨.hbm, 27, rfl⟩
abbrev main_call0_v1 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![20], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32x32 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S100000x32 : S_.BroadcastsInDim S100000x32 (![] : Fin 0 → Fin S100000x32.rank)
  bitsLt_bf16_f32 : FTy.bits .bf16 < FTy.bits .f32
  bcast_S100000x32_S100000x32x1_0_1 : S100000x32.BroadcastsInDim S100000x32x1 (![0, 1] : Fin 2 → Fin S100000x32x1.rank)
  bcast_S100000x32x1_S100000x32x32_0_1_2 : S100000x32x1.BroadcastsInDim S100000x32x32 (![0, 1, 2] : Fin 3 → Fin S100000x32x32.rank)
  bcast_S_S100000x32x32 : S_.BroadcastsInDim S100000x32x32 (![] : Fin 0 → Fin S100000x32x32.rank)
  bcast_S_S64 : S_.BroadcastsInDim S64 (![] : Fin 0 → Fin S64.rank)
  shapeCasts_S64_S1x64 : S64.ShapeCasts S1x64
  transposes_S64x32_S32x64_1_0 : S64x32.Transposes [1, 0] S32x64
  inb_S5000x32x32_S5000x32x32_0_0_0 : ∀ a, (![0, 0, 0] : Fin 3 → Nat) a + S5000x32x32.size a ≤ S5000x32x32.size a
  h_S5000x32x32 : 0 < S5000x32x32.numel
  shapeCasts_S5000x32x32_S5000x32x32 : S5000x32x32.ShapeCasts S5000x32x32
  shapeCasts_S5000x32x32_S160000x32 : S5000x32x32.ShapeCasts S160000x32
  inb_S32x64_S32x64_0_0 : ∀ a, (![0, 0] : Fin 2 → Nat) a + S32x64.size a ≤ S32x64.size a
  h_S32x64 : 0 < S32x64.numel
  shapeCasts_S32x64_S32x64 : S32x64.ShapeCasts S32x64
  shapeCasts_S160000x64_S5000x32x64 : S160000x64.ShapeCasts S5000x32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S1x64_S1x1x64 : S1x64.ShapeCasts S1x1x64
  broadcasts_S1x1x64_S5000x32x64 : S1x1x64.Broadcasts S5000x32x64
  reduces_S5000x32x64_S5000x64 : S5000x32x64.Reduces [1] S5000x64
  inb_S5000x64_S5000x64_0_0 : ∀ a, (![0, 0] : Fin 2 → Nat) a + S5000x64.size a ≤ S5000x64.size a
  h_S5000x64 : 0 < S5000x64.numel
  gather_S400000x32_S100000x32x1_S100000x32x32_2_0_n_n_0_2_132_wf : GatherDims.WF S400000x32 S100000x32x1 S100000x32x32 [2] [0] [] [0] [] 2 ![1, 32]
  dot_S160000x32_S32x64_S160000x64_1_0_0_1_n_n_wf : DotDims.WF S160000x32 S32x64 S160000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32x32.size a ≤ S100000x32x32.size a
  hwx0_0 : ∀ i : grid0.Coords, EltTy.bits .bf16 = 32 ∨ (Rect.block (s := S100000x32x32) S5000x32x32.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .bf16 = 32 ∨ (Rect.block (s := S32x64) S32x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)

variable [Facts₀]

def gather_S400000x32_S100000x32x1_S100000x32x32_2_0_n_n_0_2_132 : GatherDims S400000x32 S100000x32x1 S100000x32x32 where
  offsetDims := [2]
  collapsedSliceDims := [0]
  operandBatchingDims := []
  startIndicesBatchingDims := []
  startIndexMap := [0]
  indexVectorDim := 2
  sliceSizes := ![1, 32]
  wf := gather_S400000x32_S100000x32x1_S100000x32x32_2_0_n_n_0_2_132_wf
def dot_S160000x32_S32x64_S160000x64_1_0_0_1_n_n : DotDims S160000x32 S32x64 S160000x64 where
  lhsContracting := [1]
  rhsContracting := [0]
  lhsNonContracting := [0]
  rhsNonContracting := [1]
  lhsBatch := []
  rhsBatch := []
  wf := dot_S160000x32_S32x64_S160000x64_1_0_0_1_n_n_wf

abbrev win0_0 : Pipeline.Window sig grid0 :=
  Pipeline.Window.ofSpec (Memref.whole main_v13) S5000x32x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S400000x32 : Shape := ⟨2, ![400000, 32]⟩
abbrev S100000x32 : Shape := ⟨2, ![100000, 32]⟩
abbrev S64x32 : Shape := ⟨2, ![64, 32]⟩
abbrev S64 : Shape := ⟨1, ![64]⟩
abbrev S_ : Shape := ⟨0, ![]⟩
abbrev S100000x32x1 : Shape := ⟨3, ![100000, 32, 1]⟩
abbrev S100000x32x32 : Shape := ⟨3, ![100000, 32, 32]⟩
abbrev S100000x32x64 : Shape := ⟨3, ![100000, 32, 64]⟩
abbrev S1x1x64 : Shape := ⟨3, ![1, 1, 64]⟩
abbrev S100000x64 : Shape := ⟨2, ![100000, 64]⟩

abbrev nBuf : Space → Nat
  | .hbm => 53
  | .vmem => 0
  | .smem => 0
  | _ => 0

abbrev bufTy : (tb : Table) → Fin (tcTables nBuf tb) → BufTy
  | .hbm, ⟨0, _⟩ => ⟨S400000x32, .f32⟩
  | .hbm, ⟨1, _⟩ => ⟨S100000x32, .i32⟩
  | .hbm, ⟨2, _⟩ => ⟨S100000x32, .i32⟩
  | .hbm, ⟨3, _⟩ => ⟨S64x32, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S_, .i32⟩
  | .hbm, ⟨10, _⟩ => ⟨S100000x32, .i32⟩
  | .hbm, ⟨11, _⟩ => ⟨S100000x32, .i1⟩
  | .hbm, ⟨12, _⟩ => ⟨S_, .i32⟩
  | .hbm, ⟨13, _⟩ => ⟨S100000x32, .i32⟩
  | .hbm, ⟨14, _⟩ => ⟨S100000x32, .i32⟩
  | .hbm, ⟨15, _⟩ => ⟨S_, .i32⟩
  | .hbm, ⟨16, _⟩ => ⟨S100000x32, .i32⟩
  | .hbm, ⟨17, _⟩ => ⟨S100000x32, .i1⟩
  | .hbm, ⟨18, _⟩ => ⟨S_, .i32⟩
  | .hbm, ⟨19, _⟩ => ⟨S100000x32, .i32⟩
  | .hbm, ⟨20, _⟩ => ⟨S100000x32, .i32⟩
  | .hbm, ⟨21, _⟩ => ⟨S100000x32, .i32⟩
  | .hbm, ⟨22, _⟩ => ⟨S100000x32x1, .i32⟩
  | .hbm, ⟨23, _⟩ => ⟨S100000x32x32, .f32⟩
  | .hbm, ⟨24, _⟩ => ⟨S100000x32x1, .i1⟩
  | .hbm, ⟨25, _⟩ => ⟨S_, .f32⟩
  | .hbm, ⟨26, _⟩ => ⟨S_, .f32⟩
  | .hbm, ⟨27, _⟩ => ⟨S100000x32x32, .i1⟩
  | .hbm, ⟨28, _⟩ => ⟨S100000x32x32, .f32⟩
  | .hbm, ⟨29, _⟩ => ⟨S100000x32x32, .f32⟩
  | .hbm, ⟨30, _⟩ => ⟨S100000x32x64, .f32⟩
  | .hbm, ⟨31, _⟩ => ⟨S1x1x64, .f32⟩
  | .hbm, ⟨32, _⟩ => ⟨S100000x32x64, .f32⟩
  | .hbm, ⟨33, _⟩ => ⟨S100000x32x64, .f32⟩
  | .hbm, ⟨34, _⟩ => ⟨S1x1x64, .f32⟩
  | .hbm, ⟨35, _⟩ => ⟨S100000x32x64, .f32⟩
  | .hbm, ⟨36, _⟩ => ⟨S100000x32x64, .f32⟩
  | .hbm, ⟨37, _⟩ => ⟨S_, .f32⟩
  | .hbm, ⟨38, _⟩ => ⟨S64, .f32⟩
  | .hbm, ⟨39, _⟩ => ⟨S64, .f32⟩
  | .hbm, ⟨40, _⟩ => ⟨S64, .f32⟩
  | .hbm, ⟨41, _⟩ => ⟨S64, .f32⟩
  | .hbm, ⟨42, _⟩ => ⟨S1x1x64, .f32⟩
  | .hbm, ⟨43, _⟩ => ⟨S100000x32x64, .f32⟩
  | .hbm, ⟨44, _⟩ => ⟨S100000x32x64, .f32⟩
  | .hbm, ⟨45, _⟩ => ⟨S1x1x64, .f32⟩
  | .hbm, ⟨46, _⟩ => ⟨S100000x32x64, .f32⟩
  | .hbm, ⟨47, _⟩ => ⟨S100000x32x64, .f32⟩
  | .hbm, ⟨48, _⟩ => ⟨S_, .f32⟩
  | .hbm, ⟨49, _⟩ => ⟨S100000x32x64, .f32⟩
  | .hbm, ⟨50, _⟩ => ⟨S100000x32x64, .f32⟩
  | .hbm, ⟨51, _⟩ => ⟨S_, .f32⟩
  | .hbm, ⟨52, _⟩ => ⟨S100000x64, .f32⟩
  | _, _ => ⟨S400000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_c_1 : Ref sig .tc := ⟨.hbm, 15, rfl⟩
abbrev main_v4 : Ref sig .tc := ⟨.hbm, 16, rfl⟩
abbrev main_v5 : Ref sig .tc := ⟨.hbm, 17, rfl⟩
abbrev main_c_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_call1_cst : Ref sig .tc := ⟨.hbm, 48, rfl⟩
abbrev main_call1_v0 : Ref sig .tc := ⟨.hbm, 49, rfl⟩
abbrev main_v30 : Ref sig .tc := ⟨.hbm, 50, rfl⟩
abbrev main_cst_4 : Ref sig .tc := ⟨.hbm, 51, rfl⟩
abbrev main_v31 : Ref sig .tc := ⟨.hbm, 52, rfl⟩

abbrev nD : Nat := 1
abbrev τ : Topo := Topo.v7x

variable {F : FTy → Type} [FloatOps F]

class Facts₀ : Prop where
  bcast_S_S100000x32 : S_.BroadcastsInDim S100000x32 (![] : Fin 0 → Fin S100000x32.rank)
  bcast_S100000x32_S100000x32x1_0_1 : S100000x32.BroadcastsInDim S100000x32x1 (![0, 1] : Fin 2 → Fin S100000x32x1.rank)
  bcast_S100000x32x1_S100000x32x32_0_1_2 : S100000x32x1.BroadcastsInDim S100000x32x32 (![0, 1, 2] : Fin 3 → Fin S100000x32x32.rank)
  bcast_S_S100000x32x32 : S_.BroadcastsInDim S100000x32x32 (![] : Fin 0 → Fin S100000x32x32.rank)
  bcast_S64_S1x1x64_2 : S64.BroadcastsInDim S1x1x64 (![2] : Fin 1 → Fin S1x1x64.rank)
  bcast_S1x1x64_S100000x32x64_0_1_2 : S1x1x64.BroadcastsInDim S100000x32x64 (![0, 1, 2] : Fin 3 → Fin S100000x32x64.rank)
  bcast_S_S64 : S_.BroadcastsInDim S64 (![] : Fin 0 → Fin S64.rank)
  bcast_S_S100000x32x64 : S_.BroadcastsInDim S100000x32x64 (![] : Fin 0 → Fin S100000x32x64.rank)
  reducesTo_S100000x32x64_S100000x64_d1 : S100000x32x64.ReducesTo [1] S100000x64
  h_S_ : 0 < S_.numel
  gather_S400000x32_S100000x32x1_S100000x32x32_2_0_n_n_0_2_132_wf : GatherDims.WF S400000x32 S100000x32x1 S100000x32x32 [2] [0] [] [0] [] 2 ![1, 32]
  dot_S100000x32x32_S64x32_S100000x32x64_2_1_01_0_n_n_wf : DotDims.WF S100000x32x32 S64x32 S100000x32x64 [2] [1] [0, 1] [0] [] []

variable [Facts₀]

def gather_S400000x32_S100000x32x1_S100000x32x32_2_0_n_n_0_2_132 : GatherDims S400000x32 S100000x32x1 S100000x32x32 where
  offsetDims := [2]
  collapsedSliceDims := [0]
  operandBatchingDims := []
  startIndicesBatchingDims := []
  startIndexMap := [0]
  indexVectorDim := 2
  sliceSizes := ![1, 32]
  wf := gather_S400000x32_S100000x32x1_S100000x32x32_2_0_n_n_0_2_132_wf
def dot_S100000x32x32_S64x32_S100000x32x64_2_1_01_0_n_n : DotDims S100000x32x32 S64x32 S100000x32x64 where
  lhsContracting := [2]
  rhsContracting := [1]
  lhsNonContracting := [0, 1]
  rhsNonContracting := [0]
  lhsBatch := []
  rhsBatch := []
  wf := dot_S100000x32x32_S64x32_S100000x32x64_2_1_01_0_n_n_wf

class Facts : Prop extends Facts₀ where

variable [Facts]
-- ==== Proof.PreFacts.lean ====
/-
  What the precondition says of the arguments, element by element.

  The precondition is a conjunction of eight `all`s: for each of the seven float arrays, every entry has absolute value
  below +∞; and every entry of the running variance, plus the stabiliser ε, is positive. Read in the extended reals the
  first seven say that every entry is a real number, and the eighth that `v + ε > 0`, which is exactly what keeps the
  normalisation scale `γ / √(v + ε)` inside the domain of the square root and of the quotient.
-/
import proofs.«429076_j2972117369413_1_alg».proof.Pre_finite_inputs
import proofs.«429076_j2972117369413_1_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Decode

open Cert.Pre_finite_inputs Idealize.ShloMosaic Idealize.ShloMosaic.ValueIdx

instance : Subsingleton S_.Idx := ⟨fun a b => funext fun d => d.elim0⟩

/-- An extended real whose absolute value compares below +∞ is a real number. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

/-- A comparison `0 < u` that answers 1 holds. -/
theorem pos_of_cmp (u : EReal) (h : Ideal.cmp .ogt u (Ideal.ofBits .f32 0x00000000#32) = 1#1) : 0 < u := by
  rw [Ideal.ofBits_zero_f32] at h
  by_contra hn
  simp [Ideal.cmp, hn] at h

/-- The precondition, element by element: the seven float arguments hold real numbers, and the variance plus ε is
    positive. -/
theorem decode (x0 : FVec Ideal S400000x32 .f32) (x1 x2 : IVec S100000x32 32) (x3 : FVec Ideal S64x32 .f32)
    (x4 x5 x6 x7 x8 : FVec Ideal S64 .f32)
    (h : fn (F := Ideal) x0 x1 x2 x3 x4 x5 x6 x7 x8 = fun _ => 1#1) :
    (∀ i, ∃ r : ℝ, x0 i = (r : EReal)) ∧ (∀ i, ∃ r : ℝ, x3 i = (r : EReal)) ∧ (∀ i, ∃ r : ℝ, x4 i = (r : EReal))
      ∧ (∀ i, ∃ r : ℝ, x5 i = (r : EReal)) ∧ (∀ i, ∃ r : ℝ, x6 i = (r : EReal)) ∧ (∀ i, ∃ r : ℝ, x7 i = (r : EReal))
      ∧ (∀ i, ∃ r : ℝ, x8 i = (r : EReal)) ∧ (∀ i, 0 < x8 i + Ideal.ofBits .f32 0x3727C5AC#32) := by
  have h0 := congrFun h ix0
  dsimp only [fn, fn_part1, fn_part2] at h0
  obtain ⟨h33, h38⟩ := IntOp.andi_eq_one.1 h0
  obtain ⟨h28, h32⟩ := IntOp.andi_eq_one.1 h33
  obtain ⟨h23, h27⟩ := IntOp.andi_eq_one.1 h28
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  refine ⟨fun i => ?_, fun i => ?_, fun i => ?_, fun i => ?_, fun i => ?_, fun i => ?_, fun i => ?_, fun i => ?_⟩
  · exact real_of_abs_lt _ (Host.reduce_andi_all _ _ _ _ ix0 h3 i)
  · exact real_of_abs_lt _ (Host.reduce_andi_all _ _ _ _ ix0 h7 i)
  · exact real_of_abs_lt _ (Host.reduce_andi_all _ _ _ _ ix0 h12 i)
  · exact real_of_abs_lt _ (Host.reduce_andi_all _ _ _ _ ix0 h17 i)
  · exact real_of_abs_lt _ (Host.reduce_andi_all _ _ _ _ ix0 h22 i)
  · exact real_of_abs_lt _ (Host.reduce_andi_all _ _ _ _ ix0 h27 i)
  · exact real_of_abs_lt _ (Host.reduce_andi_all _ _ _ _ ix0 h32 i)
  · exact pos_of_cmp _ (Host.reduce_andi_all _ _ _ _ ix0 h38 i)

end Cert.Pre_finite_inputs.Decode

end
-- ==== Proof.HostStages.lean ====
/-
  What the kernel's four input windows hold when the region is entered, as functions of the arguments.

  Before the one pipelined call the kernel's program gathers and masks the neighbour tensor, transposes the weight matrix,
  and folds the bias and the batch normalisation into a scale row `s = γ / √(v + ε)` and an offset row
  `b · s + (β − μ · s)`. The neighbour tensor is built by the same host operations as the reference's (clamp the indices at
  zero, gather rows, select against the mask), over a table whose change of float format is the identity at the ideal
  values, and with a zero fill that is the real number 0 in either format: so it IS the reference's gathered tensor.
-/
import proofs.«429076_j2972117369413_1_alg».proof.Proof.Gen.KernelIdeal.Frame
import proofs.«429076_j2972117369413_1_alg».proof.Proof.Gen.ReferenceIdeal.Read
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Host

open Cert.KernelIdeal Cert.KernelIdeal.Gen Idealize.ShloMosaic Idealize.ShloMosaic.TcCoe Idealize.SL.Sem
open Idealize.ShloMosaic.StableHlo Idealize.ShloMosaic.ValueIdx

/-- The zero pattern of the 16-bit format denotes the real number 0. -/
theorem ofBits_zero_bf16 : Ideal.ofBits .bf16 0x0000#16 = 0 := by simp [Ideal.ofBits, Ideal.ieee]

/-- The kernel's gathered and masked neighbour tensor, as its host operations compute it from the arguments. -/
def gathered (x0 : FVec Ideal S400000x32 .f32) (x1 x2 : IVec S100000x32 32) : FVec Ideal S100000x32x32 .bf16 :=
  select
    (broadcastInDim S100000x32x32 ![0, 1, 2] bcast_S100000x32x1_S100000x32x32_0_1_2
      (broadcastInDim S100000x32x1 ![0, 1] bcast_S100000x32_S100000x32x1_0_1
        (cmpi .eq x2 (broadcastInDim S100000x32 ![] bcast_S_S100000x32 (constantI S_ 32 0#32)))))
    (Host.gather gather_S400000x32_S100000x32x1_S100000x32x32_2_0_n_n_0_2_132 (truncf .bf16 x0 bitsLt_bf16_f32)
      (broadcastInDim S100000x32x1 ![0, 1] bcast_S100000x32_S100000x32x1_0_1
        (select
          (cmpi .slt (maxsi x1 (broadcastInDim S100000x32 ![] bcast_S_S100000x32 (constantI S_ 32 0#32)))
            (broadcastInDim S100000x32 ![] bcast_S_S100000x32 (constantI S_ 32 0#32)))
          (addi (maxsi x1 (broadcastInDim S100000x32 ![] bcast_S_S100000x32 (constantI S_ 32 0#32)))
            (broadcastInDim S100000x32 ![] bcast_S_S100000x32 (constantI S_ 32 400000#32)))
          (maxsi x1 (broadcastInDim S100000x32 ![] bcast_S_S100000x32 (constantI S_ 32 0#32))))))
    (broadcastInDim S100000x32x32 ![] bcast_S_S100000x32x32 (constant S_ .bf16 0x0000#16))

/-- Entry by entry it is the reference's gathered and masked tensor: the same selection of the same table row, the fill
    the real number 0 on both sides. -/
theorem gathered_apply (x0 : FVec Ideal S400000x32 .f32) (x1 x2 : IVec S100000x32 32) (i : S100000x32x32.Idx) :
    gathered x0 x1 x2 i = Cert.ReferenceIdeal.Read.val_main_v12 (F := Ideal) x0 x1 x2 i := by
  unfold gathered Cert.ReferenceIdeal.Read.val_main_v12 Cert.ReferenceIdeal.Read.val_main_call0_v2
    Cert.ReferenceIdeal.Read.val_main_call0_v0 Cert.ReferenceIdeal.Read.val_main_cst
  show Scalar.select _ _ (Ideal.ofBits .bf16 0x0000#16) = Scalar.select _ _ (Ideal.ofBits .f32 0x00000000#32)
  rw [ofBits_zero_bf16, Ideal.ofBits_zero_f32]
  rfl

/-- The transposed weight matrix, in the kernel's 16-bit operand format (a change of format is the identity here). -/
def weightsT (x3 : FVec Ideal S64x32 .f32) : FVec Ideal S32x64 .bf16 :=
  truncf .bf16 (transpose S32x64 [1, 0] x3 transposes_S64x32_S32x64_1_0) bitsLt_bf16_f32

/-- Entry `(c, o)` of the transposed weights is entry `(o, c)` of the weights. -/
theorem weightsT_apply (x3 : FVec Ideal S64x32 .f32) (cc : Fin 32) (o : Fin 64) :
    weightsT x3 (ix2 cc o) = x3 (ix2 o cc) := by
  unfold weightsT
  exact transpose_ix2_apply x3 transposes_S64x32_S32x64_1_0 cc o

/-- The normalisation scale per output channel, `γ / √(v + ε)`. -/
def scale (x5 x8 : FVec Ideal S64 .f32) : FVec Ideal S64 .f32 :=
  Host.divf x5 (Host.sqrt (addf x8 (broadcastInDim S64 ![] bcast_S_S64 (constant (F := Ideal) S_ .f32 0x3727C5AC#32))))

theorem scale_apply (x5 x8 : FVec Ideal S64 .f32) (o : Fin 64) :
    scale x5 x8 (ix1 o) = Ideal.div (x5 (ix1 o)) (Ideal.sqrt (x8 (ix1 o) + Ideal.ofBits .f32 0x3727C5AC#32)) := rfl

/-- The scale as the [1, 64] row the kernel's window holds. -/
def scaleRow (x5 x8 : FVec Ideal S64 .f32) : FVec Ideal S1x64 .f32 :=
  shapeCast S1x64 (scale x5 x8) shapeCasts_S64_S1x64

theorem scaleRow_apply (x5 x8 : FVec Ideal S64 .f32) (o : Fin 64) :
    scaleRow x5 x8 (ix2 (0 : Fin 1) o) = scale x5 x8 (ix1 o) := by
  unfold scaleRow
  exact shapeCast_a_1a_apply _ shapeCasts_S64_S1x64 (0 : Fin 1) o

/-- The folded offset per output channel, `b · s + (β − μ · s)`, as the [1, 64] row the kernel's window holds. -/
def offsetRow (x4 x5 x6 x7 x8 : FVec Ideal S64 .f32) : FVec Ideal S1x64 .f32 :=
  shapeCast S1x64 (addf (mulf x4 (scale x5 x8)) (subf x6 (mulf x7 (scale x5 x8)))) shapeCasts_S64_S1x64

theorem offsetRow_apply (x4 x5 x6 x7 x8 : FVec Ideal S64 .f32) (o : Fin 64) :
    offsetRow x4 x5 x6 x7 x8 (ix2 (0 : Fin 1) o)
      = x4 (ix1 o) * scale x5 x8 (ix1 o) + (x6 (ix1 o) - x7 (ix1 o) * scale x5 x8 (ix1 o)) := by
  unfold offsetRow
  exact shapeCast_a_1a_apply _ shapeCasts_S64_S1x64 (0 : Fin 1) o

variable (m : (ℓ : Loc nD τ sig) → Buf (Elt Ideal) ℓ)

set_option maxHeartbeats 1000000 in
/-- Window 0's array at region entry is the gathered tensor of the arguments. -/
theorem V_gathered (c : Dev nD) :
    (V m c main_v13 : FVec Ideal S100000x32x32 .bf16)
      = gathered (m ((c : Thread nD τ).loc main_arg0)) (m ((c : Thread nD τ).loc main_arg1)) (m ((c : Thread nD τ).loc main_arg2)) := by
  dsimp only [Gen.V]
  simp only [Gen.hostOps0, Gen.hostOps0_1, Gen.hostOps0_2, List.flatten_cons, List.flatten_nil, List.append_nil, List.cons_append, List.nil_append]
  after_results_simp
  rfl

/-- Window 1's array at region entry is the transposed weight matrix. -/
theorem V_weights (c : Dev nD) :
    (V m c main_v25 : FVec Ideal S32x64 .bf16) = weightsT (m ((c : Thread nD τ).loc main_arg3)) := by
  dsimp only [Gen.V]
  simp only [Gen.hostOps0, Gen.hostOps0_1, Gen.hostOps0_2, List.flatten_cons, List.flatten_nil, List.append_nil, List.cons_append, List.nil_append]
  after_results_simp
  rfl

/-- Window 2's array at region entry is the scale row. -/
theorem V_scale (c : Dev nD) :
    (V m c main_v23 : FVec Ideal S1x64 .f32)
      = scaleRow (m ((c : Thread nD τ).loc main_arg5)) (m ((c : Thread nD τ).loc main_arg8)) := by
  dsimp only [Gen.V]
  simp only [Gen.hostOps0, Gen.hostOps0_1, Gen.hostOps0_2, List.flatten_cons, List.flatten_nil, List.append_nil, List.cons_append, List.nil_append]
  after_results_simp
  rfl

/-- Window 3's array at region entry is the folded offset row. -/
theorem V_offset (c : Dev nD) :
    (V m c main_v22 : FVec Ideal S1x64 .f32)
      = offsetRow (m ((c : Thread nD τ).loc main_arg4)) (m ((c : Thread nD τ).loc main_arg5)) (m ((c : Thread nD τ).loc main_arg6))
          (m ((c : Thread nD τ).loc main_arg7)) (m ((c : Thread nD τ).loc main_arg8)) := by
  dsimp only [Gen.V]
  simp only [Gen.hostOps0, Gen.hostOps0_1, Gen.hostOps0_2, List.flatten_cons, List.flatten_nil, List.append_nil, List.cons_append, List.nil_append]
  after_results_simp
  rfl

end Cert.KernelIdeal.Host

end
-- ==== Proof.Payload.lean ====
/-
  What one grid step of the kernel computes, read at an index.

  The body takes a tile `g` of 5000 voxels × 32 neighbours × 32 input channels, the 32 × 64 weight matrix `w`, and two
  rows `s`, `β'` of 64 per-channel numbers. It flattens the tile to 160000 rows, multiplies by `w`, un-flattens,
  applies `· s + β'` and a clamp at zero, and takes the maximum over the 32 neighbours. At voxel `r` and output
  channel `o` of the tile the stored value is therefore
    max over k of max ((∑ c, g[r, k, c] · w[c, o]) · s[o] + β'[o], 0),
  the outer maximum starting from −∞. Row `32 r + k` of the flattened tile is neighbour `k` of voxel `r`, which is all the
  index arithmetic there is.
-/
import proofs.«429076_j2972117369413_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Pay

open Cert.KernelIdeal Cert.KernelIdeal.Gen Idealize.ShloMosaic Idealize.ShloMosaic.ValueIdx

/-! ## The matrix product at an index -/

theorem lhs_mm_0 (i : S160000x64.Idx) (q : dot_S160000x32_S32x64_S160000x64_1_0_0_1_n_n.contr.Idx) :
    (dot_S160000x32_S32x64_S160000x64_1_0_0_1_n_n.lhsIdx i q 0).val = (i 0).val := by
  unfold DotDims.lhsIdx
  rw [dif_neg (show ¬(0 : Fin S160000x32.rank) ∈ dot_S160000x32_S32x64_S160000x64_1_0_0_1_n_n.lhsBatch by decide), dif_pos (show (0 : Fin S160000x32.rank) ∈ dot_S160000x32_S32x64_S160000x64_1_0_0_1_n_n.lhsNonContracting by decide)]
  rfl
theorem lhs_mm_1 (i : S160000x64.Idx) (q : dot_S160000x32_S32x64_S160000x64_1_0_0_1_n_n.contr.Idx) :
    (dot_S160000x32_S32x64_S160000x64_1_0_0_1_n_n.lhsIdx i q 1).val = (q ⟨0, by decide⟩).val :=
  dot_S160000x32_S32x64_S160000x64_1_0_0_1_n_n.lhsIdx_val_of_single rfl i q
theorem rhs_mm_0 (i : S160000x64.Idx) (q : dot_S160000x32_S32x64_S160000x64_1_0_0_1_n_n.contr.Idx) :
    (dot_S160000x32_S32x64_S160000x64_1_0_0_1_n_n.rhsIdx i q 0).val = (q ⟨0, by decide⟩).val :=
  dot_S160000x32_S32x64_S160000x64_1_0_0_1_n_n.rhsIdx_val_of_single rfl i q
theorem rhs_mm_1 (i : S160000x64.Idx) (q : dot_S160000x32_S32x64_S160000x64_1_0_0_1_n_n.contr.Idx) :
    (dot_S160000x32_S32x64_S160000x64_1_0_0_1_n_n.rhsIdx i q 1).val = (i 1).val := by
  unfold DotDims.rhsIdx
  rw [dif_neg (show ¬(1 : Fin S32x64.rank) ∈ dot_S160000x32_S32x64_S160000x64_1_0_0_1_n_n.rhsBatch by decide), dif_pos (show (1 : Fin S32x64.rank) ∈ dot_S160000x32_S32x64_S160000x64_1_0_0_1_n_n.rhsNonContracting by decide)]
  rfl

/-- Entry `(p, o)` of the product of a 160000 × 32 matrix with a 32 × 64 one, into a zero accumulator: the sum over the
    32 shared coordinates. -/
theorem mm_apply (l : FVec Ideal S160000x32 .bf16) (w : FVec Ideal S32x64 .bf16) (p : Fin 160000) (o : Fin 64) :
    matmul dot_S160000x32_S32x64_S160000x64_1_0_0_1_n_n none l w (constant S160000x64 .f32 0x00000000#32) (ix2 p o)
      = ∑ c : Fin 32, l (ix2 p c) * w (ix2 c o) := by
  refine (Ideal.matmul_constant_zero_apply dot_S160000x32_S32x64_S160000x64_1_0_0_1_n_n none l w (ix2 p o)).trans ?_
  rw [← Equiv.sum_comp (ValueIdx.contrEquiv1 dot_S160000x32_S32x64_S160000x64_1_0_0_1_n_n 32 rfl rfl).symm]
  refine Finset.sum_congr rfl fun c _ => ?_
  have hc := ValueIdx.contrEquiv1_symm_val dot_S160000x32_S32x64_S160000x64_1_0_0_1_n_n 32 rfl rfl c
  have el : dot_S160000x32_S32x64_S160000x64_1_0_0_1_n_n.lhsIdx (ix2 p o) ((ValueIdx.contrEquiv1 dot_S160000x32_S32x64_S160000x64_1_0_0_1_n_n 32 rfl rfl).symm c) = ix2 p c := funext fun a => Fin.ext (by
    match a with
    | ⟨0, _⟩ => exact lhs_mm_0 _ _
    | ⟨1, _⟩ => exact (lhs_mm_1 _ _).trans hc)
  have er : dot_S160000x32_S32x64_S160000x64_1_0_0_1_n_n.rhsIdx (ix2 p o) ((ValueIdx.contrEquiv1 dot_S160000x32_S32x64_S160000x64_1_0_0_1_n_n 32 rfl rfl).symm c) = ix2 c o := funext fun a => Fin.ext (by
    match a with
    | ⟨0, _⟩ => exact (rhs_mm_0 _ _).trans hc
    | ⟨1, _⟩ => exact rhs_mm_1 _ _)
  rw [el, er]

/-! ## The layout steps at an index -/

/-- Row `32 r + k` of the flattened tile is neighbour `k` of voxel `r`. -/
theorem flat_apply (g : FVec Ideal S5000x32x32 .bf16) (r : Fin 5000) (k c : Fin 32) :
    shapeCast S160000x32 g shapeCasts_S5000x32x32_S160000x32 (ix2 (⟨r.val * 32 + k.val, by omega⟩ : Fin 160000) c)
      = g (ix3 r k c) :=
  shapeCast_apply g _ _ _ (by rw [Shape.rowMajor_val_three, Shape.rowMajor_val_two]; rfl)

/-- Un-flattening the product: entry `(r, k, o)` is row `32 r + k`, column `o`. -/
theorem unflat_apply (y : FVec Ideal S160000x64 .f32) (r : Fin 5000) (k : Fin 32) (o : Fin 64) :
    shapeCast S5000x32x64 y shapeCasts_S160000x64_S5000x32x64 (ix3 r k o)
      = y (ix2 (⟨r.val * 32 + k.val, by omega⟩ : Fin 160000) o) :=
  shapeCast_apply y _ _ _ (by rw [Shape.rowMajor_val_three, Shape.rowMajor_val_two]; rfl)

/-- A row of 64 per-channel numbers spread over the tile: entry `(r, k, o)` is the row's entry `o`. -/
theorem row_apply (v : FVec Ideal S1x64 .f32) (r : Fin 5000) (k : Fin 32) (o : Fin 64) :
    broadcastTo S5000x32x64 (shapeCast S1x1x64 (shapeCast S1x64 v shapeCasts_S1x64_S1x64) shapeCasts_S1x64_S1x1x64) broadcasts_S1x1x64_S5000x32x64
        (ix3 r k o)
      = v (ix2 (0 : Fin 1) o) := by
  rw [shapeCast_self]
  refine (broadcastTo_apply _ _ (ix3 r k o) (ix3 (0 : Fin 1) (0 : Fin 1) o) (fun a => ?_)).trans ?_
  · match a with
    | ⟨0, _⟩ => rfl
    | ⟨1, _⟩ => rfl
    | ⟨2, _⟩ => rfl
  · exact shapeCast_ab_1ab_apply v _ (0 : Fin 1) (0 : Fin 1) o

/-- The reduced axis put back: over result index `(r, o)`, coordinate `k` on the neighbour axis is `(r, k, o)`. -/
theorem lift_eq (r : Fin 5000) (k : Fin 32) (o : Fin 64) :
    reduces_S5000x32x64_S5000x64.lift (ix2 r o) k = ix3 r k o := by
  funext a
  match a with
  | ⟨0, _⟩ => rfl
  | ⟨1, _⟩ => rfl
  | ⟨2, _⟩ => rfl

/-- The body before its last reduction: the clamped affine image of the un-flattened product, a [5000, 32, 64] array. -/
def body (g : FVec Ideal S5000x32x32 .bf16) (w : FVec Ideal S32x64 .bf16) (s b' : FVec Ideal S1x64 .f32) :
    FVec Ideal S5000x32x64 .f32 :=
  maximumf
    (addf
      (mulf
        (shapeCast S5000x32x64
          (matmul dot_S160000x32_S32x64_S160000x64_1_0_0_1_n_n none
            (shapeCast S160000x32 (shapeCast S5000x32x32 g shapeCasts_S5000x32x32_S5000x32x32) shapeCasts_S5000x32x32_S160000x32)
            (shapeCast S32x64 w shapeCasts_S32x64_S32x64) (constant S160000x64 .f32 0x00000000#32))
          shapeCasts_S160000x64_S5000x32x64)
        (broadcastTo S5000x32x64 (shapeCast S1x1x64 (shapeCast S1x64 s shapeCasts_S1x64_S1x64) shapeCasts_S1x64_S1x1x64)
          broadcasts_S1x1x64_S5000x32x64))
      (broadcastTo S5000x32x64 (shapeCast S1x1x64 (shapeCast S1x64 b' shapeCasts_S1x64_S1x64) shapeCasts_S1x64_S1x1x64)
        broadcasts_S1x1x64_S5000x32x64))
    (broadcast S5000x32x64 (Scalar.ofBits .f32 0x00000000#32))

/-- The body before its reduction, at neighbour `k` of voxel `r`, channel `o`. -/
theorem body_apply (g : FVec Ideal S5000x32x32 .bf16) (w : FVec Ideal S32x64 .bf16) (s b' : FVec Ideal S1x64 .f32)
    (r : Fin 5000) (k : Fin 32) (o : Fin 64) :
    body g w s b' (ix3 r k o)
      = max ((∑ c : Fin 32, g (ix3 r k c) * w (ix2 c o)) * s (ix2 (0 : Fin 1) o) + b' (ix2 (0 : Fin 1) o))
          (Ideal.ofBits .f32 0x00000000#32) := by
  unfold body
  simp only [maximumf_apply, addf_apply, mulf_apply, broadcast_apply]
  rw [unflat_apply, row_apply, row_apply, mm_apply]
  simp only [flat_apply, shapeCast_self]
  rfl

/-- The value the body stores at voxel `r`, channel `o` of its tile: the maximum over the neighbours, from −∞, of the
    clamped affine image of the row of the matrix product. -/
theorem pay_apply (g : FVec Ideal S5000x32x32 .bf16) (w : FVec Ideal S32x64 .bf16) (s b' : FVec Ideal S1x64 .f32)
    (r : Fin 5000) (o : Fin 64) :
    k0_pay1 (F := Ideal) g w s b' (ix2 r o)
      = (Finset.univ : Finset (Fin 32)).fold max (Ideal.ofBits .f32 0xFF800000#32)
          (fun k => max ((∑ c : Fin 32, g (ix3 r k c) * w (ix2 c o)) * s (ix2 (0 : Fin 1) o) + b' (ix2 (0 : Fin 1) o))
            (Ideal.ofBits .f32 0x00000000#32)) := by
  show multiReduction .maximumf [1] S5000x64 (body g w s b') 0xFF800000#32 reduces_S5000x32x64_S5000x64 (.inl rfl) rfl (ix2 r o) = _
  refine (Ideal.multiReduction_maximumf_single _ _ reduces_S5000x32x64_S5000x64 (.inl rfl) rfl (ix2 r o)).trans ?_
  refine Finset.fold_congr (fun k _ => ?_)
  exact (congrArg (body g w s b') (lift_eq r k o)).trans (body_apply g w s b' r k o)

end Cert.KernelIdeal.Pay

end
-- ==== Proof.RefValue.lean ====
/-
  The reference's result, read at an index.

  At voxel `m` and output channel `o` the reference's result is the maximum over the 32 neighbours `k`, starting from −∞,
  of the clamp at zero of
    (((∑ c, g[m, k, c] · W[o, c]) + b[o]) − μ[o]) · (γ[o] / √(v[o] + ε)) + β[o],
  where `g` is the gathered and masked neighbour tensor (kept as the reference's own stage here: the kernel builds the
  same tensor with the same host operations).
-/
import proofs.«429076_j2972117369413_1_alg».proof.Proof.Gen.ReferenceIdeal.Read
import Idealize.ShloMosaic.Lib.ValueIdx
import Idealize.ShloMosaic.PureOps.Ideal.Laws
import Idealize.ShloMosaic.PureOps.Reduce

set_option maxRecDepth 16384

noncomputable section

namespace Cert.ReferenceIdeal.RefValue

open Cert.ReferenceIdeal Cert.ReferenceIdeal.Gen Cert.ReferenceIdeal.Read Idealize.ShloMosaic Idealize.ShloMosaic.ValueIdx

/-- Dropping the neighbour axis of a [100000, 32, 64] array. -/
theorem red : S100000x32x64.Reduces [1] S100000x64 := by decide

/-- The reduced axis put back: over result index `(m, o)`, coordinate `k` on the neighbour axis is `(m, k, o)`. -/
theorem lift_eq (m : Fin 100000) (k : Fin 32) (o : Fin 64) : red.lift (ix2 m o) k = ix3 m k o := by
  funext a
  match a with
  | ⟨0, _⟩ => rfl
  | ⟨1, _⟩ => rfl
  | ⟨2, _⟩ => rfl

/-- A per-channel vector spread over the [100000, 32, 64] array is read at its channel. -/
theorem chan_idx (m : Fin 100000) (k : Fin 32) (o : Fin 64) :
    idx_main_v14 (idx_main_v15 (ix3 m k o)) = ix1 o :=
  funext fun a => Fin.ext (by match a with | ⟨0, _⟩ => rfl)

theorem chan_idx_mean (m : Fin 100000) (k : Fin 32) (o : Fin 64) :
    idx_main_v17 (idx_main_v18 (ix3 m k o)) = ix1 o :=
  funext fun a => Fin.ext (by match a with | ⟨0, _⟩ => rfl)

theorem chan_idx_scale (m : Fin 100000) (k : Fin 32) (o : Fin 64) :
    idx_main_v24 (idx_main_v25 (ix3 m k o)) = ix1 o :=
  funext fun a => Fin.ext (by match a with | ⟨0, _⟩ => rfl)

theorem chan_idx_offset (m : Fin 100000) (k : Fin 32) (o : Fin 64) :
    idx_main_v27 (idx_main_v28 (ix3 m k o)) = ix1 o :=
  funext fun a => Fin.ext (by match a with | ⟨0, _⟩ => rfl)

theorem lidx_eq (m : Fin 100000) (k : Fin 32) (o : Fin 64) (c : Fin 32) : lidx_main_v13 (ix3 m k o) c = ix3 m k c :=
  funext fun a => Fin.ext (by match a with | ⟨0, _⟩ => rfl | ⟨1, _⟩ => rfl | ⟨2, _⟩ => rfl)

theorem ridx_eq (m : Fin 100000) (k : Fin 32) (o : Fin 64) (c : Fin 32) : ridx_main_v13 (ix3 m k o) c = ix2 o c :=
  funext fun a => Fin.ext (by match a with | ⟨0, _⟩ => rfl | ⟨1, _⟩ => rfl)

/-- The gathered and masked neighbour tensor holds real numbers when the table does: each entry is a table entry, or
    the fill 0. -/
theorem gathered_real (x0 : FVec Ideal S400000x32 .f32) (x1 x2 : IVec S100000x32 32)
    (h0 : ∀ i, ∃ r : ℝ, x0 i = (r : EReal)) (i : S100000x32x32.Idx) :
    ∃ r : ℝ, val_main_v12 (F := Ideal) x0 x1 x2 i = (r : EReal) := by
  rw [val_main_v12_apply]
  unfold Scalar.select
  split
  · exact h0 _
  · rw [val_main_call0_v2_apply, val_main_call0_v0_apply, val_main_cst_apply]
    exact ⟨0, Ideal.ofBits_zero_f32.trans EReal.coe_zero.symm⟩

/-- The reference before its last reduction, at neighbour `k` of voxel `m`, channel `o`. -/
theorem pre_apply (x0 : FVec Ideal S400000x32 .f32) (x1 x2 : IVec S100000x32 32) (x3 : FVec Ideal S64x32 .f32)
    (x4 x5 x6 x7 x8 : FVec Ideal S64 .f32) (m : Fin 100000) (k : Fin 32) (o : Fin 64) :
    val_main_v30 (F := Ideal) x0 x1 x2 x3 x4 x5 x6 x7 x8 (ix3 m k o)
      = max ((((∑ c : Fin 32, val_main_v12 (F := Ideal) x0 x1 x2 (ix3 m k c) * x3 (ix2 o c)) + x4 (ix1 o)) - x7 (ix1 o))
              * Ideal.div (x5 (ix1 o)) (Ideal.sqrt (x8 (ix1 o) + Ideal.ofBits .f32 0x3727C5AC#32)) + x6 (ix1 o))
          (Ideal.ofBits .f32 0x00000000#32) := by
  rw [val_main_v30_apply, val_main_v29_apply, val_main_v26_apply, val_main_v19_apply, val_main_v16_apply,
    val_main_v13_apply, val_main_v15_apply, val_main_v14_apply, val_main_v18_apply, val_main_v17_apply,
    val_main_v25_apply, val_main_v24_apply, val_main_v23_apply, val_main_v22_apply, val_main_v21_apply,
    val_main_v20_apply, val_main_cst_3_apply, val_main_v28_apply, val_main_v27_apply, val_main_call1_v0_apply,
    val_main_call1_cst_apply]
  simp only [chan_idx, chan_idx_mean, chan_idx_scale, chan_idx_offset, lidx_eq, ridx_eq]
  rfl

/-- The reference's result at voxel `m`, channel `o`: the maximum over the neighbours, from −∞, of the clamped
    normalised projection. -/
theorem ref_apply (x0 : FVec Ideal S400000x32 .f32) (x1 x2 : IVec S100000x32 32) (x3 : FVec Ideal S64x32 .f32)
    (x4 x5 x6 x7 x8 : FVec Ideal S64 .f32) (m : Fin 100000) (o : Fin 64) :
    val_main_v31 (F := Ideal) x0 x1 x2 x3 x4 x5 x6 x7 x8 (ix2 m o)
      = (Finset.univ : Finset (Fin 32)).fold max (Ideal.ofBits .f32 0xFF800000#32)
          (fun k => max ((((∑ c : Fin 32, val_main_v12 (F := Ideal) x0 x1 x2 (ix3 m k c) * x3 (ix2 o c)) + x4 (ix1 o)) - x7 (ix1 o))
              * Ideal.div (x5 (ix1 o)) (Ideal.sqrt (x8 (ix1 o) + Ideal.ofBits .f32 0x3727C5AC#32)) + x6 (ix1 o))
            (Ideal.ofBits .f32 0x00000000#32)) := by
  unfold val_main_v31
  refine (Host.reduce_eq_fold_single FloatOps.maximumf _ _ reducesTo_S100000x32x64_S100000x64_d1 red h_S_ (ix2 m o)).trans ?_
  refine Finset.fold_congr (fun k _ => ?_)
  rw [Function.comp_apply, lift_eq m k o]
  exact pre_apply x0 x1 x2 x3 x4 x5 x6 x7 x8 m k o

end Cert.ReferenceIdeal.RefValue

end
-- ==== Proof.Algebra.lean ====
/-
  The arithmetic that joins the two programs, stated over the extended reals with every number involved finite.

  The kernel folds the per-channel bias and the batch normalisation into one affine map applied after the matrix
  product: `P · s + (b · s + (β − μ · s))`, with `s = γ / √(v + ε)`. The reference applies them in order:
  `((P + b) − μ) · s + β`. The two agree by distributivity of `·` over `+` and `−`, which the extended reals have
  only at finite values; so this file also shows that the numbers entering the law are finite: a finite sum of real
  products is real, and the scale `s` is real as soon as `v + ε` is positive.
-/
import Idealize.ShloMosaic.PureOps.Ideal.Laws

noncomputable section

namespace Cert.VoxelPool

open Idealize.ShloMosaic

/-- A finite sum of extended reals that are all real numbers is a real number. -/
theorem sum_real {n : ℕ} (f : Fin n → EReal) (hf : ∀ k, ∃ r : ℝ, f k = (r : EReal)) :
    ∃ r : ℝ, ∑ k, f k = (r : EReal) := by
  classical
  choose g hg using hf
  refine ⟨∑ k, g k, ?_⟩
  have key : ∀ s : Finset (Fin n), ∑ k ∈ s, f k = ((∑ k ∈ s, g k : ℝ) : EReal) := by
    intro s
    refine Finset.induction_on s ?_ ?_
    · simp
    · intro a s ha ih
      rw [Finset.sum_insert ha, Finset.sum_insert ha, ih, hg a, EReal.coe_add]
  exact key Finset.univ

/-- The product of two real numbers, read in the extended reals, is a real number. -/
theorem mul_real {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- The normalisation scale `γ / √u` is a real number when `γ` is real and `u > 0`: for a real `u` the root is a
    positive real and the quotient is the product with its reciprocal; for `u = +∞` the root is `+∞` and the
    quotient is `0`. -/
theorem scale_real (g : ℝ) (u : EReal) (hu : 0 < u) :
    ∃ s : ℝ, Ideal.div (g : EReal) (Ideal.sqrt u) = (s : EReal) := by
  induction u using EReal.rec with
  | bot => exact absurd hu not_lt_bot
  | top =>
    refine ⟨0, ?_⟩
    rw [Ideal.sqrt_top, Ideal.div, if_neg EReal.top_ne_zero, EReal.inv_top, mul_zero, EReal.coe_zero]
  | coe r =>
    have hr : 0 < r := by exact_mod_cast hu
    have hs : Real.sqrt r ≠ 0 := (Real.sqrt_pos.2 hr).ne'
    refine ⟨g * (1 / Real.sqrt r), ?_⟩
    rw [Ideal.sqrt_coe, if_neg (not_lt.2 hr.le), Ideal.div_coe hs, EReal.coe_mul]

/-- The affine law at finite values: applying the bias, the mean shift, the scale and the offset in order equals
    scaling the product and adding the folded offset `b · s + (β − μ · s)`. -/
theorem affine_law (P b μ β s : ℝ) :
    (((P : EReal) + (b : EReal)) - (μ : EReal)) * (s : EReal) + (β : EReal)
      = (P : EReal) * (s : EReal) + ((b : EReal) * (s : EReal) + ((β : EReal) - (μ : EReal) * (s : EReal))) := by
  have h : ((P + b) - μ) * s + β = P * s + (b * s + (β - μ * s)) := by ring
  exact_mod_cast congrArg (fun x : ℝ => (x : EReal)) h

end Cert.VoxelPool

end
-- ==== Proof.KernelValue.lean ====
/-
  The kernel's result array, whole.

  The call runs 20 grid steps; step `t` stages voxels `5000 t … 5000 t + 4999` of the gathered tensor, the whole weight
  matrix and the two per-channel rows, and writes back rows `5000 t … 5000 t + 4999` of the output. With the body's value
  at an index (the payload), the four windows' contents (the host stages) and the affine law, row `5000 t + r`, channel `o` of
  what step `t` writes back is the reference's pooled feature at `(5000 t + r, o)`; the 20 blocks tile the output, so the
  array after the run is the reference's result as a function of the kernel's own arguments.
-/
import proofs.«429076_j2972117369413_1_alg».proof.Proof.Gen.KernelIdeal.Value
import proofs.«429076_j2972117369413_1_alg».proof.Proof.HostStages
import proofs.«429076_j2972117369413_1_alg».proof.Proof.Payload
import proofs.«429076_j2972117369413_1_alg».proof.Proof.RefValue
import proofs.«429076_j2972117369413_1_alg».proof.Proof.Algebra

set_option maxRecDepth 16384

noncomputable section

namespace Cert.KernelIdeal.Pooled

open Cert.KernelIdeal Cert.KernelIdeal.Gen Idealize.ShloMosaic Idealize.ShloMosaic.TcCoe Idealize.SL.Sem
open Idealize.ShloMosaic.ValueIdx Cert.VoxelPool
open Idealize.ShloMosaic.Pipeline (Dat)

variable (m : (ℓ : Loc nD τ sig) → Buf (Elt Ideal) ℓ) (ρ : Dev nD → PrngReg)

/-! ## The arguments, at their literal types -/

abbrev vox (c : Dev nD) : FVec Ideal S400000x32 .f32 := m ((c : Thread nD τ).loc main_arg0)
abbrev nbr (c : Dev nD) : IVec S100000x32 32 := m ((c : Thread nD τ).loc main_arg1)
abbrev msk (c : Dev nD) : IVec S100000x32 32 := m ((c : Thread nD τ).loc main_arg2)
abbrev wts (c : Dev nD) : FVec Ideal S64x32 .f32 := m ((c : Thread nD τ).loc main_arg3)
abbrev bia (c : Dev nD) : FVec Ideal S64 .f32 := m ((c : Thread nD τ).loc main_arg4)
abbrev gam (c : Dev nD) : FVec Ideal S64 .f32 := m ((c : Thread nD τ).loc main_arg5)
abbrev bet (c : Dev nD) : FVec Ideal S64 .f32 := m ((c : Thread nD τ).loc main_arg6)
abbrev mea (c : Dev nD) : FVec Ideal S64 .f32 := m ((c : Thread nD τ).loc main_arg7)
abbrev vrc (c : Dev nD) : FVec Ideal S64 .f32 := m ((c : Thread nD τ).loc main_arg8)

/-- The pooled features as the reference computes them, of the kernel's arguments. -/
abbrev pooled (c : Dev nD) : FVec Ideal S100000x64 .f32 :=
  Cert.ReferenceIdeal.Read.val_main_v31 (F := Ideal) (vox m c) (nbr m c) (msk m c) (wts m c) (bia m c) (gam m c) (bet m c) (mea m c) (vrc m c)

/-- The gathered and masked neighbour tensor, of the kernel's arguments. -/
abbrev nbrs (c : Dev nD) : FVec Ideal S100000x32x32 .f32 :=
  Cert.ReferenceIdeal.Read.val_main_v12 (F := Ideal) (vox m c) (nbr m c) (msk m c)

/-- What the precondition gives on core `c`: the float arguments that enter the law hold real numbers, and the variance
    plus ε is positive. -/
structure Finite (c : Dev nD) : Prop where
  vox : ∀ i, ∃ r : ℝ, vox m c i = (r : EReal)
  wts : ∀ i, ∃ r : ℝ, wts m c i = (r : EReal)
  bia : ∀ i, ∃ r : ℝ, bia m c i = (r : EReal)
  gam : ∀ i, ∃ r : ℝ, gam m c i = (r : EReal)
  bet : ∀ i, ∃ r : ℝ, bet m c i = (r : EReal)
  mea : ∀ i, ∃ r : ℝ, mea m c i = (r : EReal)
  pos : ∀ i, 0 < vrc m c i + Ideal.ofBits .f32 0x3727C5AC#32

/-! ## The index maps, decided over the 20 grid points -/

theorem hz2 : (![0, 0] : Fin 2 → Nat) = fun _ => 0 := funext fun a => by fin_cases a <;> rfl
theorem hz3 : (![0, 0, 0] : Fin 3 → Nat) = fun _ => 0 := funext fun a => by fin_cases a <;> rfl

/-- Step `t` stages block `t` of the neighbour tensor and of the output along the voxel axis, and block 0 of everything else. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## The four input blocks at a point, read at an index -/

/-- Step `t`'s tile of the gathered tensor. -/
abbrev tile (c : Dev nD) (t : Fin cfg0.N) : FVec Ideal S5000x32x32 .bf16 := iblk m c 0 t
/-- Step `t`'s block of the transposed weights. -/
abbrev wblk (c : Dev nD) (t : Fin cfg0.N) : FVec Ideal S32x64 .bf16 := iblk m c 1 t
/-- Step `t`'s block of the scale row. -/
abbrev sblk (c : Dev nD) (t : Fin cfg0.N) : FVec Ideal S1x64 .f32 := iblk m c 2 t
/-- Step `t`'s block of the offset row. -/
abbrev oblk (c : Dev nD) (t : Fin cfg0.N) : FVec Ideal S1x64 .f32 := iblk m c 3 t

/-- Voxel `r` of step `t`'s tile is voxel `5000 t + r` of the gathered tensor. -/
theorem tile_apply (c : Dev nD) (t : Fin cfg0.N) (r : Fin 5000) (k cc : Fin 32) (hlt : t.val * 5000 + r.val < 100000) :
    tile m c t (ix3 r k cc) = nbrs m c (ix3 (⟨t.val * 5000 + r.val, hlt⟩ : Fin 100000) k cc) := by
  show (V m c main_v13 : FVec Ideal S100000x32x32 .bf16) (((cfg0.win 0).blk t).view.emb (ix3 r k cc)) = _
  rw [Host.V_gathered, Host.gathered_apply]
  refine congrArg _ (funext fun a => Fin.ext ?_)
  obtain ⟨e0, e1, e2, -⟩ := idx_facts t
  match a with
  | ⟨0, _⟩ => show win0_0.index t (0 : Fin 3) * 5000 + 1 * r.val = t.val * 5000 + r.val; omega
  | ⟨1, _⟩ => show win0_0.index t (1 : Fin 3) * 32 + 1 * k.val = k.val; omega
  | ⟨2, _⟩ => show win0_0.index t (2 : Fin 3) * 32 + 1 * cc.val = cc.val; omega

/-- Every step stages the whole transposed weight matrix. -/
theorem wblk_apply (c : Dev nD) (t : Fin cfg0.N) (cc : Fin 32) (o : Fin 64) :
    wblk m c t (ix2 cc o) = wts m c (ix2 o cc) := by
  show (V m c main_v25 : FVec Ideal S32x64 .bf16) (((cfg0.win 1).blk t).view.emb (ix2 cc o)) = _
  rw [Host.V_weights]
  refine Eq.trans (congrArg _ (funext fun a => Fin.ext ?_)) (Host.weightsT_apply (wts m c) cc o)
  obtain ⟨-, -, -, e3, e4, -⟩ := idx_facts t
  match a with
  | ⟨0, _⟩ => show win0_1.index t (0 : Fin 2) * 32 + 1 * cc.val = cc.val; omega
  | ⟨1, _⟩ => show win0_1.index t (1 : Fin 2) * 64 + 1 * o.val = o.val; omega

/-- Every step stages the whole scale row. -/
theorem sblk_apply (c : Dev nD) (t : Fin cfg0.N) (o : Fin 64) :
    sblk m c t (ix2 (0 : Fin 1) o) = Host.scale (gam m c) (vrc m c) (ix1 o) := by
  show (V m c main_v23 : FVec Ideal S1x64 .f32) (((cfg0.win 2).blk t).view.emb (ix2 (0 : Fin 1) o)) = _
  rw [Host.V_scale]
  refine Eq.trans (congrArg _ (funext fun a => Fin.ext ?_)) (Host.scaleRow_apply (gam m c) (vrc m c) o)
  obtain ⟨-, -, -, -, -, e5, e6, -⟩ := idx_facts t
  match a with
  | ⟨0, _⟩ => show win0_2.index t (0 : Fin 2) * 1 + 1 * 0 = 0; omega
  | ⟨1, _⟩ => show win0_2.index t (1 : Fin 2) * 64 + 1 * o.val = o.val; omega

/-- Every step stages the whole folded offset row. -/
theorem oblk_apply (c : Dev nD) (t : Fin cfg0.N) (o : Fin 64) :
    oblk m c t (ix2 (0 : Fin 1) o)
      = bia m c (ix1 o) * Host.scale (gam m c) (vrc m c) (ix1 o)
          + (bet m c (ix1 o) - mea m c (ix1 o) * Host.scale (gam m c) (vrc m c) (ix1 o)) := by
  show (V m c main_v22 : FVec Ideal S1x64 .f32) (((cfg0.win 3).blk t).view.emb (ix2 (0 : Fin 1) o)) = _
  rw [Host.V_offset]
  refine Eq.trans (congrArg _ (funext fun a => Fin.ext ?_)) (Host.offsetRow_apply (bia m c) (gam m c) (bet m c) (mea m c) (vrc m c) o)
  obtain ⟨-, -, -, -, -, -, -, e7, e8, -⟩ := idx_facts t
  match a with
  | ⟨0, _⟩ => show win0_3.index t (0 : Fin 2) * 1 + 1 * 0 = 0; omega
  | ⟨1, _⟩ => show win0_3.index t (1 : Fin 2) * 64 + 1 * o.val = o.val; omega

/-! ## One entry: the kernel's affine form is the reference's -/

/-- At finite values the kernel's `P · s + (b · s + (β − μ · s))` is the reference's `((P + b) − μ) · s + β`, for the row
    product `P` of neighbour `k` of voxel `v` and channel `o`. -/
theorem entry_eq (c : Dev nD) (hf : Finite m c) (v : Fin 100000) (k : Fin 32) (o : Fin 64) :
    (∑ cc : Fin 32, nbrs m c (ix3 v k cc) * wts m c (ix2 o cc)) * Host.scale (gam m c) (vrc m c) (ix1 o)
        + (bia m c (ix1 o) * Host.scale (gam m c) (vrc m c) (ix1 o)
            + (bet m c (ix1 o) - mea m c (ix1 o) * Host.scale (gam m c) (vrc m c) (ix1 o)))
      = (((∑ cc : Fin 32, nbrs m c (ix3 v k cc) * wts m c (ix2 o cc)) + bia m c (ix1 o)) - mea m c (ix1 o))
          * Ideal.div (gam m c (ix1 o)) (Ideal.sqrt (vrc m c (ix1 o) + Ideal.ofBits .f32 0x3727C5AC#32)) + bet m c (ix1 o) := by
  obtain ⟨P, hP⟩ := sum_real (fun cc : Fin 32 => nbrs m c (ix3 v k cc) * wts m c (ix2 o cc))
    (fun cc => mul_real (Cert.ReferenceIdeal.RefValue.gathered_real _ _ _ hf.vox _) (hf.wts _))
  obtain ⟨b, hb⟩ := hf.bia (ix1 o)
  obtain ⟨μ, hμ⟩ := hf.mea (ix1 o)
  obtain ⟨β, hβ⟩ := hf.bet (ix1 o)
  obtain ⟨g, hg⟩ := hf.gam (ix1 o)
  obtain ⟨s, hs⟩ := scale_real g _ (hf.pos (ix1 o))
  rw [Host.scale_apply, hg, hs, hb, hμ, hβ]
  exact (congrArg (fun x => x * (s : EReal) + ((b : EReal) * (s : EReal) + ((β : EReal) - (μ : EReal) * (s : EReal)))) hP).trans
    ((affine_law P b μ β s).symm.trans (congrArg (fun x => ((x + (b : EReal)) - (μ : EReal)) * (s : EReal) + (β : EReal)) hP.symm))

/-! ## One grid step -/

/-- What step `t`'s body computes at voxel `r`, channel `o` of its tile is the pooled feature at `(5000 t + r, o)`. -/
theorem point_eq (c : Dev nD) (hf : Finite m c) (t : Fin cfg0.N) (r : Fin 5000) (o : Fin 64) (hlt : t.val * 5000 + r.val < 100000) :
    k0_pay1 (F := Ideal) (tile m c t) (wblk m c t) (sblk m c t) (oblk m c t) (ix2 r o)
      = pooled m c (ix2 (⟨t.val * 5000 + r.val, hlt⟩ : Fin 100000) o) := by
  refine (Pay.pay_apply (tile m c t) (wblk m c t) (sblk m c t) (oblk m c t) r o).trans ?_
  refine Eq.trans ?_ (Cert.ReferenceIdeal.RefValue.ref_apply (vox m c) (nbr m c) (msk m c) (wts m c) (bia m c) (gam m c) (bet m c) (mea m c) (vrc m c) ⟨t.val * 5000 + r.val, hlt⟩ o).symm
  refine Finset.fold_congr (fun k _ => ?_)
  have hsum : (∑ cc : Fin 32, tile m c t (ix3 r k cc) * wblk m c t (ix2 cc o))
      = ∑ cc : Fin 32, nbrs m c (ix3 (⟨t.val * 5000 + r.val, hlt⟩ : Fin 100000) k cc) * wts m c (ix2 o cc) :=
    Finset.sum_congr rfl fun cc _ => by rw [tile_apply m c t r k cc hlt, wblk_apply m c t cc o]
  rw [hsum, sblk_apply m c t o, oblk_apply m c t o]
  exact congrArg (fun x => max x (Ideal.ofBits .f32 0x00000000#32)) (entry_eq m c hf ⟨t.val * 5000 + r.val, hlt⟩ k o)

/-! ## From the 20 blocks to the array -/

/-- If every step's body computes, at voxel `r` and channel `o` of its tile, the entry `(5000 t + r, o)` of one function
    `G` on the output's index set, then what step `t` writes back is block `t` of `G`. -/
theorem flushed_eq_of (c : Dev nD) (G : FVec Ideal S100000x64 .f32)
    (hG : ∀ (t : Fin cfg0.N) (r : Fin 5000) (o : Fin 64) (hlt : t.val * 5000 + r.val < 100000),
      k0_pay1 (F := Ideal) (tile m c t) (wblk m c t) (sblk m c t) (oblk m c t) (ix2 r o)
        = G (ix2 (⟨t.val * 5000 + r.val, hlt⟩ : Fin 100000) o))
    (t : Fin cfg0.N) :
    (dats m 0 c).flushed 4 t = ((cfg0.win 4).blk t).view.read (Elt Ideal) G := by
  rw [Cert.KernelIdeal.Value.flushed4]
  unfold out0_4
  rw [View.canon_unit_zero hz2]
  simp only [View.ld_unit_zero (S := S5000x32x32) hz3, View.ld_unit_zero (S := S32x64) hz2, View.ld_unit_zero (S := S1x64) hz2]
  funext j
  have hN : grid0.N = 20 := N_0
  have hN' : cfg0.N = 20 := N_0
  have hj0 : (j 0).val < 5000 := (j 0).isLt
  have hj1 : (j 1).val < 64 := (j 1).isLt
  have hlt : t.val * 5000 + (j 0).val < 100000 := by have := t.isLt; omega
  have ej : j = ix2 (⟨(j 0).val, hj0⟩ : Fin 5000) (⟨(j 1).val, hj1⟩ : Fin 64) :=
    funext fun a => by match a with | ⟨0, _⟩ => rfl | ⟨1, _⟩ => rfl
  show k0_pay1 (F := Ideal) (tile m c t) (wblk m c t) (sblk m c t) (oblk m c t) j
    = G (((cfg0.win 4).blk t).view.emb j)
  refine ((congrArg (k0_pay1 (F := Ideal) (tile m c t) (wblk m c t) (sblk m c t) (oblk m c t)) ej).trans
    (hG t ⟨(j 0).val, hj0⟩ ⟨(j 1).val, hj1⟩ hlt)).trans ?_
  refine congrArg G (funext fun a => Fin.ext ?_)
  obtain ⟨-, -, -, -, -, -, -, -, -, e9, e10⟩ := idx_facts t
  match a with
  | ⟨0, _⟩ => show t.val * 5000 + (j 0).val = win0_4.index t (0 : Fin 2) * 5000 + 1 * (j 0).val; omega
  | ⟨1, _⟩ => show (j 1).val = win0_4.index t (1 : Fin 2) * 64 + 1 * (j 1).val; omega

/-- An index of the output is in step `t`'s block iff each coordinate is in the block's range on its axis. -/
theorem mem_blk (t : Fin cfg0.N) (i : S100000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v26).slice (win0_4.rect t)).set ↔ _
  rw [View.set_slice_whole, Rect.mem_set_unit]
  exact Iff.rfl

/-- Row `v` of the output is in the block of step `v / 5000`: the 20 blocks tile the array. -/
theorem cover (i : S100000x64.Idx) :
    ∃ t : Fin cfg0.N, (cfg0.win 4).flush t = true ∧ i ∈ ((cfg0.win 4).blk t).view.set := by
  have hN : grid0.N = 20 := N_0
  have hN' : cfg0.N = 20 := N_0
  have hi0 : (i 0).val < 100000 := (i 0).isLt
  have hi1 : (i 1).val < 64 := (i 1).isLt
  refine ⟨⟨(i 0).val / 5000, by omega⟩, flush0_4 _, ?_⟩
  rw [mem_blk]
  obtain ⟨-, -, -, -, -, -, -, -, -, e9, e10⟩ := idx_facts ⟨(i 0).val / 5000, by omega⟩
  have e9' : win0_4.index ⟨(i 0).val / 5000, by omega⟩ (0 : Fin 2) = (i 0).val / 5000 := e9
  intro a
  match a with
  | ⟨0, _⟩ =>
    show win0_4.index ⟨(i 0).val / 5000, _⟩ (0 : Fin 2) * 5000 ≤ (i 0).val ∧ (i 0).val < win0_4.index ⟨(i 0).val / 5000, _⟩ (0 : Fin 2) * 5000 + 5000
    omega
  | ⟨1, _⟩ =>
    show win0_4.index ⟨(i 0).val / 5000, _⟩ (1 : Fin 2) * 64 ≤ (i 1).val ∧ (i 1).val < win0_4.index ⟨(i 0).val / 5000, _⟩ (1 : Fin 2) * 64 + 64
    omega

/-- The output array after the run is the pooled features. -/
theorem final (c : Dev nD) (hf : Finite m c) : (dats m 0 c).arrAt 4 cfg0.N = pooled m c :=
  (dats m 0 c).arrAt_eq_of_cover 4 (pooled m c) (fun t _ => flushed_eq_of m c (pooled m c) (point_eq m c hf) t) cover

/-- The kernel's run: the result at the pooled features of its arguments, the arguments unchanged. -/
theorem run (hf : ∀ c, Finite m c) : θ_run defs (onTc (τ := τ) (main (F := Ideal))) ⟨m, fun _ => 0, ρ⟩ fun r => ∀ c : Dev nD,
      r.2.mem ((c : Thread nD τ).loc main_v26) = pooled m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c (hf c)), (h c).2⟩) (Cert.KernelIdeal.Value.run_blocks m ρ)

end Cert.KernelIdeal.Pooled

end
-- ==== Proof.lean ====
/-
  Neighbour pooling over a voxel grid: a pointwise projection, a batch normalisation at running statistics, a clamp at
  zero, and a maximum over the 32 gathered neighbours of each of 100000 voxels, for 64 output channels.

  Both programs gather the rows of a 400000 × 32 table at the indices clamped at zero, zero the masked neighbours, and
  project onto 64 channels with the weights `W`. The reference then computes, per neighbour,
      relu ((((P + b) − μ) · (γ / √(v + ε))) + β)
  and takes the maximum over the neighbours. The kernel folds the bias and the normalisation into one scale row
  `s = γ / √(v + ε)` and one offset row `b · s + (β − μ · s)` on the host, and inside its pipelined call computes
  `relu (P · s + offset)` on tiles of 5000 voxels (the matrix product on the flattened 160000 × 32 tile) and the same
  maximum. The two agree by distributivity, which the extended reals have at finite values: the float arguments are
  finite by the precondition, and the scale is finite because the precondition keeps `v + ε` positive, the domain on
  which the reference's own `γ / √(v + ε)` is a number. The changes of float format on the kernel's side are the
  identity at the ideal values, and a sum's order does not matter there.

  The frames of the two kernel programs and the reference's run are the generated ones; the kernel's result array as a
  whole (Proof/KernelValue.lean) is set against the reference's run here.
-/
import proofs.«429076_j2972117369413_1_alg».proof.Defs
import proofs.«429076_j2972117369413_1_alg».proof.Proof.Gen.Kernel
import proofs.«429076_j2972117369413_1_alg».proof.Proof.Gen.Kernel.Skeleton
import proofs.«429076_j2972117369413_1_alg».proof.Proof.Gen.Kernel.Launch
import proofs.«429076_j2972117369413_1_alg».proof.Proof.Gen.Kernel.Points
import proofs.«429076_j2972117369413_1_alg».proof.Proof.Gen.Kernel.Frame
import proofs.«429076_j2972117369413_1_alg».proof.Proof.Gen.KernelIdeal
import proofs.«429076_j2972117369413_1_alg».proof.Proof.Gen.KernelIdeal.Skeleton
import proofs.«429076_j2972117369413_1_alg».proof.Proof.Gen.KernelIdeal.Launch
import proofs.«429076_j2972117369413_1_alg».proof.Proof.Gen.KernelIdeal.Points
import proofs.«429076_j2972117369413_1_alg».proof.Proof.Gen.KernelIdeal.Frame
import proofs.«429076_j2972117369413_1_alg».proof.Proof.Gen.ReferenceIdeal
import proofs.«429076_j2972117369413_1_alg».proof.Proof.Gen.Pre_finite_inputs
import proofs.«429076_j2972117369413_1_alg».proof.Proof.Gen.KernelIdeal.Value
import proofs.«429076_j2972117369413_1_alg».proof.Proof.Gen.ReferenceIdeal.Run
import proofs.«429076_j2972117369413_1_alg».proof.Proof.Gen.ReferenceIdeal.Read
import proofs.«429076_j2972117369413_1_alg».proof.Proof.PreFacts
import proofs.«429076_j2972117369413_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealisation rewrote nothing in this kernel. -/
theorem preserves : Cert.preserves_Kernel_KernelIdeal := trivial

/-- On every core the precondition makes the float arguments real numbers and the variance plus ε positive. -/
theorem finite_of_pre (m : (ℓ : Loc Cert.KernelIdeal.nD Cert.KernelIdeal.τ Cert.KernelIdeal.sig) → Buf (Elt Ideal) ℓ)
    (hpre : Cert.Pre_KernelIdeal m) (c : Dev Cert.KernelIdeal.nD) : Cert.KernelIdeal.Pooled.Finite m c := by
  obtain ⟨h0, h3, h4, h5, h6, h7, -, hpos⟩ := Cert.Pre_finite_inputs.Decode.decode _ _ _ _ _ _ _ _ _ (hpre c)
  exact ⟨h0, h3, h4, h5, h6, h7, hpos⟩

/-- Both runs end with the pooled features of the (agreeing) arguments: the kernel's by its value, the reference's by
    its run read as its last stage. -/
theorem algebraic : Cert.algebraic_KernelIdeal_ReferenceIdeal := by
  intro m ρ m' ρ' hpre hagree
  refine ⟨fun c => Cert.KernelIdeal.Pooled.pooled m c, Cert.KernelIdeal.Pooled.run m ρ (finite_of_pre m hpre), ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  rw [Cert.ReferenceIdeal.Read.val_main_v31_eq, e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
